-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v16)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v16) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v23) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S800000 : Shape := ⟨1, ![800000]⟩
abbrev S64x128 : Shape := ⟨2, ![64, 128]⟩
abbrev S64 : Shape := ⟨1, ![64]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S64x128 : S_.BroadcastsInDim S64x128 (![] : Fin 0 → Fin S64x128.rank)
  reducesTo_S64x128_S_d0_1 : S64x128.ReducesTo [0, 1] S_
  bcast_S_S64 : S_.BroadcastsInDim S64 (![] : Fin 0 → Fin S64.rank)
  reducesTo_S64_S_d0 : S64.ReducesTo [0] S_

variable [Facts]

def fn {F : FTy → Type} [FloatOps F] (main_arg0 : FVec F S100000x128 .f32) (main_arg1 : IVec S800000 32) (main_arg2 : IVec S800000 32) (main_arg3 : FVec F S64x128 .f32) (main_arg4 : FVec F S64 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S64x128 .f32 := Host.absf main_arg3
  let main_cst_0 : FVec F S_ .f32 := constant S_ .f32 0x7F800000#32
  let main_v5 : FVec F S64x128 .f32 := broadcastInDim S64x128 ![] bcast_S_S64x128 main_cst_0
  let main_v6 : IVec S64x128 1 := cmpf .olt main_v4 main_v5
  let main_c_1 : IVec S_ 1 := constantI S_ 1 1#1
  let main_v7 : IVec S_ 1 := (fun x v => Host.reduce IntOp.andi x v reducesTo_S64x128_S_d0_1 h_S_) main_v6 main_c_1
  let main_v8 : IVec S_ 1 := andi main_v3 main_v7
  let main_v9 : FVec F S64 .f32 := Host.absf main_arg4
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  main_v13
-- ==== Kernel.lean ====
abbrev S100000x128 : Shape := ⟨2, ![100000, 128]⟩
abbrev S800000 : Shape := ⟨1, ![800000]⟩
abbrev S64x128 : Shape := ⟨2, ![64, 128]⟩
abbrev S64 : Shape := ⟨1, ![64]⟩
abbrev S_ : Shape := ⟨0, ![]⟩
abbrev S800000x1 : Shape := ⟨2, ![800000, 1]⟩
abbrev S800000x128 : Shape := ⟨2, ![800000, 128]⟩
abbrev S100000 : Shape := ⟨1, ![100000]⟩
abbrev S100000x1 : Shape := ⟨2, ![100000, 1]⟩
abbrev S1x64 : Shape := ⟨2, ![1, 64]⟩
abbrev S100000x64 : Shape := ⟨2, ![100000, 64]⟩
abbrev S10000x128 : Shape := ⟨2, ![10000, 128]⟩
abbrev S10000x1 : Shape := ⟨2, ![10000, 1]⟩
abbrev S10000x64 : Shape := ⟨2, ![10000, 64]⟩
abbrev S128x64 : Shape := ⟨2, ![128, 64]⟩

abbrev nBuf : Space → Nat
  | .hbm => 27
  | .vmem => 10
  | .smem => 0
  | _ => 0

abbrev bufTy : (tb : Table) → Fin (tcTables nBuf tb) → BufTy
  | .hbm, ⟨0, _⟩ => ⟨S100000x128, .f32⟩
  | .hbm, ⟨1, _⟩ => ⟨S800000, .i32⟩
  | .hbm, ⟨2, _⟩ => ⟨S800000, .i32⟩
  | .hbm, ⟨3, _⟩ => ⟨S64x128, .f32⟩
  | .hbm, ⟨4, _⟩ => ⟨S64, .f32⟩
  | .hbm, ⟨5, _⟩ => ⟨S_, .i32⟩
  | .hbm, ⟨6, _⟩ => ⟨S800000, .i32⟩
  | .hbm, ⟨7, _⟩ => ⟨S800000, .i1⟩
  | .hbm, ⟨8, _⟩ => ⟨S_, .i32⟩
  | .hbm, ⟨9, _⟩ => ⟨S800000, .i32⟩
  | .hbm, ⟨10, _⟩ => ⟨S800000, .i32⟩
  | .hbm, ⟨11, _⟩ => ⟨S800000, .i32⟩
  | .hbm, ⟨12, _⟩ => ⟨S800000x1, .i32⟩
  | .hbm, ⟨13, _⟩ => ⟨S800000x128, .f32⟩
  | .hbm, ⟨14, _⟩ => ⟨S_, .f32⟩
  | .hbm, ⟨15, _⟩ => ⟨S100000x128, .f32⟩
  | .hbm, ⟨16, _⟩ => ⟨S800000x1, .i32⟩
  | .hbm, ⟨17, _⟩ => ⟨S100000x128, .f32⟩
  | .hbm, ⟨18, _⟩ => ⟨S_, .f32⟩
  | .hbm, ⟨19, _⟩ => ⟨S800000, .f32⟩
  | .hbm, ⟨20, _⟩ => ⟨S_, .f32⟩
  | .hbm, ⟨21, _⟩ => ⟨S100000, .f32⟩
  | .hbm, ⟨22, _⟩ => ⟨S800000x1, .i32⟩
  | .hbm, ⟨23, _⟩ => ⟨S100000, .f32⟩
  | .hbm, ⟨24, _⟩ => ⟨S100000x1, .f32⟩
  | .hbm, ⟨25, _⟩ => ⟨S1x64, .f32⟩
  | .hbm, ⟨26, _⟩ => ⟨S100000x64, .f32⟩
  | .local _ .vmem, ⟨0, _⟩ => ⟨S10000x128, .f32⟩
  | .local _ .vmem, ⟨1, _⟩ => ⟨S10000x128, .f32⟩
  | .local _ .vmem, ⟨2, _⟩ => ⟨S10000x128, .f32⟩
  | .local _ .vmem, ⟨3, _⟩ => ⟨S10000x128, .f32⟩
  | .local _ .vmem, ⟨4, _⟩ => ⟨S10000x1, .f32⟩
  | .local _ .vmem, ⟨5, _⟩ => ⟨S10000x1, .f32⟩
  | .local _ .vmem, ⟨6, _⟩ => ⟨S64x128, .f32⟩
  | .local _ .vmem, ⟨7, _⟩ => ⟨S1x64, .f32⟩
  | .local _ .vmem, ⟨8, _⟩ => ⟨S10000x64, .f32⟩
  | .local _ .vmem, ⟨9, _⟩ => ⟨S10000x64, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_c : Ref sig .tc := ⟨.hbm, 5, rfl⟩
abbrev main_v0 : Ref sig .tc := ⟨.hbm, 6, rfl⟩
abbrev main_v1 : Ref sig .tc := ⟨.hbm, 7, rfl⟩
abbrev main_c_0 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_1 : Ref sig .tc := ⟨.hbm, 18, rfl⟩
abbrev main_v10 : Ref sig .tc := ⟨.hbm, 19, rfl⟩
abbrev main_cst_2 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S10000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S10000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S10000x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S64x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S10000x64 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

class Facts₀ : Prop where
  bcast_S_S800000 : S_.BroadcastsInDim S800000 (![] : Fin 0 → Fin S800000.rank)
  bcast_S800000_S800000x1_0 : S800000.BroadcastsInDim S800000x1 (![0] : Fin 1 → Fin S800000x1.rank)
  bcast_S_S100000x128 : S_.BroadcastsInDim S100000x128 (![] : Fin 0 → Fin S100000x128.rank)
  bcast_S_S100000 : S_.BroadcastsInDim S100000 (![] : Fin 0 → Fin S100000.rank)
  shapeCasts_S100000_S100000x1 : S100000.ShapeCasts S100000x1
  shapeCasts_S64_S1x64 : S64.ShapeCasts S1x64
  inb_S10000x128_S10000x128_0_0 : ∀ a, (![0, 0] : Fin 2 → Nat) a + S10000x128.size a ≤ S10000x128.size a
  h_S10000x128 : 0 < S10000x128.numel
  shapeCasts_S10000x128_S10000x128 : S10000x128.ShapeCasts S10000x128
  inb_S10000x1_S10000x1_0_0 : ∀ a, (![0, 0] : Fin 2 → Nat) a + S10000x1.size a ≤ S10000x1.size a
  h_S10000x1 : 0 < S10000x1.numel
  shapeCasts_S10000x1_S10000x1 : S10000x1.ShapeCasts S10000x1
  broadcasts_S10000x1_S10000x128 : S10000x1.Broadcasts S10000x128
  bitsLt_bf16_f32 : FTy.bits .bf16 < FTy.bits .f32
  inb_S64x128_S64x128_0_0 : ∀ a, (![0, 0] : Fin 2 → Nat) a + S64x128.size a ≤ S64x128.size a
  h_S64x128 : 0 < S64x128.numel
  transposes_S64x128_p1_0_S128x64 : S64x128.Transposes [1, 0] S128x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S10000x64 : S1x64.Broadcasts S10000x64
  inb_S10000x64_S10000x64_0_0 : ∀ a, (![0, 0] : Fin 2 → Nat) a + S10000x64.size a ≤ S10000x64.size a
  h_S10000x64 : 0 < S10000x64.numel
  gather_S100000x128_S800000x1_S800000x128_1_0_n_n_0_1_1128_wf : GatherDims.WF S100000x128 S800000x1 S800000x128 [1] [0] [] [0] [] 1 ![1, 128]
  scatter_S100000x128_S800000x1_S800000x128_1_0_0_1_wf : ScatterDims.WF S100000x128 S800000x1 S800000x128 [1] [0] [0] 1
  scatter_S100000_S800000x1_S800000_n_0_0_1_wf : ScatterDims.WF S100000 S800000x1 S800000 [] [0] [0] 1
  dot_S10000x128_S128x64_S10000x64_1_0_0_1_n_n_wf : DotDims.WF S10000x128 S128x64 S10000x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x128.size a ≤ S100000x128.size a
  hwx0_0 : ∀ i : grid0.Coords, EltTy.bits .f32 = 32 ∨ (Rect.block (s := S100000x128) S10000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S10000x128.size a ≤ S100000x128.size a
  hwx0_1 : ∀ i : grid0.Coords, EltTy.bits .f32 = 32 ∨ (Rect.block (s := S100000x128) S10000x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S10000x1.size a ≤ S100000x1.size a
  hwx0_2 : ∀ i : grid0.Coords, EltTy.bits .f32 = 32 ∨ (Rect.block (s := S100000x1) S10000x1.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S64x128.size a ≤ S64x128.size a
  hwx0_3 : ∀ i : grid0.Coords, EltTy.bits .f32 = 32 ∨ (Rect.block (s := S64x128) S64x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x64.size a ≤ S1x64.size a
  hwx0_4 : ∀ i : grid0.Coords, EltTy.bits .f32 = 32 ∨ (Rect.block (s := S1x64) S1x64.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S10000x64.size a ≤ S100000x64.size a
  hwx0_5 : ∀ i : grid0.Coords, EltTy.bits .f32 = 32 ∨ (Rect.block (s := S100000x64) S10000x64.size (cc0_transform_5 i) (hinb0_5 i)).WholeWords (EltTy.packing .f32)

variable [Facts₀]

def gather_S100000x128_S800000x1_S800000x128_1_0_n_n_0_1_1128 : GatherDims S100000x128 S800000x1 S800000x128 where
  offsetDims := [1]
  collapsedSliceDims := [0]
  operandBatchingDims := []
  startIndicesBatchingDims := []
  startIndexMap := [0]
  indexVectorDim := 1
  sliceSizes := ![1, 128]
  wf := gather_S100000x128_S800000x1_S800000x128_1_0_n_n_0_1_1128_wf
def scatter_S100000x128_S800000x1_S800000x128_1_0_0_1 : ScatterDims S100000x128 S800000x1 S800000x128 where
  updateWindowDims := [1]
  insertedWindowDims := [0]
  scatterDimsToOperandDims := [0]
  indexVectorDim := 1
  wf := scatter_S100000x128_S800000x1_S800000x128_1_0_0_1_wf
def scatter_S100000_S800000x1_S800000_n_0_0_1 : ScatterDims S100000 S800000x1 S800000 where
  updateWindowDims := []
  insertedWindowDims := [0]
  scatterDimsToOperandDims := [0]
  indexVectorDim := 1
  wf := scatter_S100000_S800000x1_S800000_n_0_0_1_wf
def dot_S10000x128_S128x64_S10000x64_1_0_0_1_n_n : DotDims S10000x128 S128x64 S10000x64 where
  lhsContracting := [1]
  rhsContracting := [0]
  lhsNonContracting := [0]
  rhsNonContracting := [1]
  lhsBatch := []
  rhsBatch := []
  wf := dot_S10000x128_S128x64_S10000x64_1_0_0_1_n_n_wf

abbrev win0_0 : Pipeline.Window sig grid0 :=
  Pipeline.Window.ofSpec (Memref.whole main_arg0) S10000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v9) S10000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v14) S10000x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S64x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v15) S1x64.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v16) S10000x64.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S100000x128 : Shape := ⟨2, ![100000, 128]⟩
abbrev S800000 : Shape := ⟨1, ![800000]⟩
abbrev S64x128 : Shape := ⟨2, ![64, 128]⟩
abbrev S64 : Shape := ⟨1, ![64]⟩
abbrev S_ : Shape := ⟨0, ![]⟩
abbrev S800000x1 : Shape := ⟨2, ![800000, 1]⟩
abbrev S800000x128 : Shape := ⟨2, ![800000, 128]⟩
abbrev S100000 : Shape := ⟨1, ![100000]⟩
abbrev S100000x1 : Shape := ⟨2, ![100000, 1]⟩
abbrev S100000x64 : Shape := ⟨2, ![100000, 64]⟩
abbrev S1x64 : Shape := ⟨2, ![1, 64]⟩

abbrev nBuf : Space → Nat
  | .hbm => 35
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S800000, .i32⟩
  | .hbm, ⟨2, _⟩ => ⟨S800000, .i32⟩
  | .hbm, ⟨3, _⟩ => ⟨S64x128, .f32⟩
  | .hbm, ⟨4, _⟩ => ⟨S64, .f32⟩
  | .hbm, ⟨5, _⟩ => ⟨S_, .i32⟩
  | .hbm, ⟨6, _⟩ => ⟨S800000, .i32⟩
  | .hbm, ⟨7, _⟩ => ⟨S800000, .i1⟩
  | .hbm, ⟨8, _⟩ => ⟨S_, .i32⟩
  | .hbm, ⟨9, _⟩ => ⟨S800000, .i32⟩
  | .hbm, ⟨10, _⟩ => ⟨S800000, .i32⟩
  | .hbm, ⟨11, _⟩ => ⟨S800000, .i32⟩
  | .hbm, ⟨12, _⟩ => ⟨S800000x1, .i32⟩
  | .hbm, ⟨13, _⟩ => ⟨S800000x128, .f32⟩
  | .hbm, ⟨14, _⟩ => ⟨S_, .f32⟩
  | .hbm, ⟨15, _⟩ => ⟨S100000x128, .f32⟩
  | .hbm, ⟨16, _⟩ => ⟨S800000x1, .i32⟩
  | .hbm, ⟨17, _⟩ => ⟨S100000x128, .f32⟩
  | .hbm, ⟨18, _⟩ => ⟨S_, .f32⟩
  | .hbm, ⟨19, _⟩ => ⟨S800000, .f32⟩
  | .hbm, ⟨20, _⟩ => ⟨S_, .f32⟩
  | .hbm, ⟨21, _⟩ => ⟨S100000, .f32⟩
  | .hbm, ⟨22, _⟩ => ⟨S800000x1, .i32⟩
  | .hbm, ⟨23, _⟩ => ⟨S100000, .f32⟩
  | .hbm, ⟨24, _⟩ => ⟨S100000x128, .f32⟩
  | .hbm, ⟨25, _⟩ => ⟨S_, .f32⟩
  | .hbm, ⟨26, _⟩ => ⟨S100000, .f32⟩
  | .hbm, ⟨27, _⟩ => ⟨S100000, .f32⟩
  | .hbm, ⟨28, _⟩ => ⟨S100000x1, .f32⟩
  | .hbm, ⟨29, _⟩ => ⟨S100000x128, .f32⟩
  | .hbm, ⟨30, _⟩ => ⟨S100000x128, .f32⟩
  | .hbm, ⟨31, _⟩ => ⟨S100000x64, .f32⟩
  | .hbm, ⟨32, _⟩ => ⟨S1x64, .f32⟩
  | .hbm, ⟨33, _⟩ => ⟨S100000x64, .f32⟩
  | .hbm, ⟨34, _⟩ => ⟨S100000x64, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_c : Ref sig .tc := ⟨.hbm, 5, rfl⟩
abbrev main_v0 : Ref sig .tc := ⟨.hbm, 6, rfl⟩
abbrev main_v1 : Ref sig .tc := ⟨.hbm, 7, rfl⟩
abbrev main_c_0 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_1 : Ref sig .tc := ⟨.hbm, 18, rfl⟩
abbrev main_v10 : Ref sig .tc := ⟨.hbm, 19, rfl⟩
abbrev main_cst_2 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_cst_3 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩

abbrev nD : Nat := 1
abbrev τ : Topo := Topo.v7x

variable {F : FTy → Type} [FloatOps F]

class Facts₀ : Prop where
  bcast_S_S800000 : S_.BroadcastsInDim S800000 (![] : Fin 0 → Fin S800000.rank)
  bcast_S800000_S800000x1_0 : S800000.BroadcastsInDim S800000x1 (![0] : Fin 1 → Fin S800000x1.rank)
  bcast_S_S100000x128 : S_.BroadcastsInDim S100000x128 (![] : Fin 0 → Fin S100000x128.rank)
  bcast_S_S100000 : S_.BroadcastsInDim S100000 (![] : Fin 0 → Fin S100000.rank)
  bcast_S100000_S100000x1_0 : S100000.BroadcastsInDim S100000x1 (![0] : Fin 1 → Fin S100000x1.rank)
  bcast_S100000x1_S100000x128_0_1 : S100000x1.BroadcastsInDim S100000x128 (![0, 1] : Fin 2 → Fin S100000x128.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  gather_S100000x128_S800000x1_S800000x128_1_0_n_n_0_1_1128_wf : GatherDims.WF S100000x128 S800000x1 S800000x128 [1] [0] [] [0] [] 1 ![1, 128]
  scatter_S100000x128_S800000x1_S800000x128_1_0_0_1_wf : ScatterDims.WF S100000x128 S800000x1 S800000x128 [1] [0] [0] 1
  scatter_S100000_S800000x1_S800000_n_0_0_1_wf : ScatterDims.WF S100000 S800000x1 S800000 [] [0] [0] 1
  dot_S100000x128_S64x128_S100000x64_1_1_0_0_n_n_wf : DotDims.WF S100000x128 S64x128 S100000x64 [1] [1] [0] [0] [] []

variable [Facts₀]

def gather_S100000x128_S800000x1_S800000x128_1_0_n_n_0_1_1128 : GatherDims S100000x128 S800000x1 S800000x128 where
  offsetDims := [1]
  collapsedSliceDims := [0]
  operandBatchingDims := []
  startIndicesBatchingDims := []
  startIndexMap := [0]
  indexVectorDim := 1
  sliceSizes := ![1, 128]
  wf := gather_S100000x128_S800000x1_S800000x128_1_0_n_n_0_1_1128_wf
def scatter_S100000x128_S800000x1_S800000x128_1_0_0_1 : ScatterDims S100000x128 S800000x1 S800000x128 where
  updateWindowDims := [1]
  insertedWindowDims := [0]
  scatterDimsToOperandDims := [0]
  indexVectorDim := 1
  wf := scatter_S100000x128_S800000x1_S800000x128_1_0_0_1_wf
def scatter_S100000_S800000x1_S800000_n_0_0_1 : ScatterDims S100000 S800000x1 S800000 where
  updateWindowDims := []
  insertedWindowDims := [0]
  scatterDimsToOperandDims := [0]
  indexVectorDim := 1
  wf := scatter_S100000_S800000x1_S800000_n_0_0_1_wf
def dot_S100000x128_S64x128_S100000x64_1_1_0_0_n_n : DotDims S100000x128 S64x128 S100000x64 where
  lhsContracting := [1]
  rhsContracting := [1]
  lhsNonContracting := [0]
  rhsNonContracting := [0]
  lhsBatch := []
  rhsBatch := []
  wf := dot_S100000x128_S64x128_S100000x64_1_1_0_0_n_n_wf

class Facts : Prop extends Facts₀ where

variable [Facts]
-- ==== Proof.LibPlainMatmul.lean ====
/-
  A plain matrix product read at an index, at the ideal values.

  For dimension numbers `d` over shapes [M, K] × [K, N] → [M, N] that contract the left operand's axis 1 with the right
  operand's axis 0 and keep the left rows and the right columns — stated here as the four facts about the record's index
  maps that say so, so that the lemma serves any record, whatever its generated name — the product accumulated into the
  zero splat, read at `(p, o)`, is `∑ k, A (p, k) · B (k, o)`: the library's sum over the record's contraction index set,
  re-indexed by that set's one coordinate.
-/
import Idealize.ShloMosaic.PureOps.Ideal.Laws
import Idealize.ShloMosaic.Lib.ValueIdx

noncomputable section

open scoped BigOperators
open Idealize.ShloMosaic Idealize.ShloMosaic.ValueIdx

namespace Cert.LibPlainMatmul

/-- `FloatOps.matmul d prec A B 0 (p, o) = ∑ k : Fin K, A (p, k) * B (k, o)` for a record `d` with one contracted axis of
    extent `K` whose left index at `(i, q)` is `(i 0, q)` and whose right index is `(q, i 1)` (`hl0`, `hl1`, `hr0`, `hr1`:
    for a generated record the first and last are a `dif_neg` / `dif_pos` on its literal axis lists, the middle two are
    `DotDims.lhsIdx_val_of_single` / `rhsIdx_val_of_single`). -/
theorem matmul_zero_apply {M K N : ℕ} {φ₁ φ₂ : FTy}
    (d : DotDims ⟨2, ![M, K]⟩ ⟨2, ![K, N]⟩ ⟨2, ![M, N]⟩) (prec : Option ContractPrecision)
    (hr : d.contr.rank = 1) (hs : d.contr.size ⟨0, by omega⟩ = K)
    (hl0 : ∀ (i : (⟨2, ![M, N]⟩ : Shape).Idx) (q : d.contr.Idx), (d.lhsIdx i q 0).val = (i 0).val)
    (hl1 : ∀ (i : (⟨2, ![M, N]⟩ : Shape).Idx) (q : d.contr.Idx), (d.lhsIdx i q 1).val = (q ⟨0, by omega⟩).val)
    (hr0 : ∀ (i : (⟨2, ![M, N]⟩ : Shape).Idx) (q : d.contr.Idx), (d.rhsIdx i q 0).val = (q ⟨0, by omega⟩).val)
    (hr1 : ∀ (i : (⟨2, ![M, N]⟩ : Shape).Idx) (q : d.contr.Idx), (d.rhsIdx i q 1).val = (i 1).val)
    (A : FVec Ideal ⟨2, ![M, K]⟩ φ₁) (B : FVec Ideal ⟨2, ![K, N]⟩ φ₂) (p : Fin M) (o : Fin N) :
    FloatOps.matmul d prec A B (constant (F := Ideal) ⟨2, ![M, N]⟩ .f32 0x00000000#32) (ix2 p o)
      = ∑ k : Fin K, A (ix2 p k) * B (ix2 k o) := by
  rw [Ideal.matmul_constant_zero_apply, ← Equiv.sum_comp (contrEquiv1 d K hr hs).symm]
  refine Finset.sum_congr rfl fun k _ => ?_
  have hk := contrEquiv1_symm_val d K hr hs k
  have el : d.lhsIdx (ix2 p o) ((contrEquiv1 d K hr hs).symm k) = ix2 p k := funext fun a => Fin.ext (by
    match a with
    | ⟨0, _⟩ => exact hl0 _ _
    | ⟨1, _⟩ => exact (hl1 _ _).trans hk)
  have er : d.rhsIdx (ix2 p o) ((contrEquiv1 d K hr hs).symm k) = ix2 k o := funext fun a => Fin.ext (by
    match a with
    | ⟨0, _⟩ => exact (hr0 _ _).trans hk
    | ⟨1, _⟩ => exact hr1 _ _)
  rw [el, er]

end Cert.LibPlainMatmul

end
-- ==== Proof.KernelBlock.lean ====
/-
  One grid point's block of the kernel's result, read at an index, at the ideal values.

  The body's one store writes, for the point's blocks `x0` (features), `x1` (neighbour sums), `x2` (degrees, a column),
  `x3` (the weights, whole) and `x4` (the bias, a row): the matrix product of `(x1 + x0) / (x2 + 1)` with the transposed
  weights, accumulated into zero, plus the bias row. The two narrowings to bf16 are the identity on extended reals; the
  product into zero read at `(p, o)` is the plain sum over the one contracted axis; the transposed weights at `(k, o)` are
  the weights at `(o, k)`; the degree column broadcast along the features reads its row's entry, the bias row broadcast
  along the rows its column's.
-/
import proofs.«133148_j78245714198552_1_alg».proof.Proof.Gen.KernelIdeal.Skeleton
import proofs.«133148_j78245714198552_1_alg».proof.Proof.LibPlainMatmul
import Idealize.ShloMosaic.Lib.Pipeline.Value
import Idealize.ShloMosaic.Lib.ValueIdx
import Idealize.ShloMosaic.PureOps.Ideal.Laws

noncomputable section

open scoped BigOperators
open Idealize.ShloMosaic Idealize.ShloMosaic.ValueIdx

namespace Cert.KernelIdeal.Block

open Cert.KernelIdeal Cert.KernelIdeal.Gen

/-- The product's record contracts the left operand's columns with the right operand's rows and keeps the left rows
    and the right columns: its four index facts. -/
theorem dot_l0 (i : S10000x64.Idx) (q : dot_S10000x128_S128x64_S10000x64_1_0_0_1_n_n.contr.Idx) :
    (dot_S10000x128_S128x64_S10000x64_1_0_0_1_n_n.lhsIdx i q 0).val = (i 0).val := by
  unfold DotDims.lhsIdx
  rw [dif_neg (show ¬(0 : Fin S10000x128.rank) ∈ dot_S10000x128_S128x64_S10000x64_1_0_0_1_n_n.lhsBatch by decide), dif_pos (show (0 : Fin S10000x128.rank) ∈ dot_S10000x128_S128x64_S10000x64_1_0_0_1_n_n.lhsNonContracting by decide)]
  rfl
theorem dot_l1 (i : S10000x64.Idx) (q : dot_S10000x128_S128x64_S10000x64_1_0_0_1_n_n.contr.Idx) :
    (dot_S10000x128_S128x64_S10000x64_1_0_0_1_n_n.lhsIdx i q 1).val = (q ⟨0, by decide⟩).val :=
  dot_S10000x128_S128x64_S10000x64_1_0_0_1_n_n.lhsIdx_val_of_single rfl i q
theorem dot_r0 (i : S10000x64.Idx) (q : dot_S10000x128_S128x64_S10000x64_1_0_0_1_n_n.contr.Idx) :
    (dot_S10000x128_S128x64_S10000x64_1_0_0_1_n_n.rhsIdx i q 0).val = (q ⟨0, by decide⟩).val :=
  dot_S10000x128_S128x64_S10000x64_1_0_0_1_n_n.rhsIdx_val_of_single rfl i q
theorem dot_r1 (i : S10000x64.Idx) (q : dot_S10000x128_S128x64_S10000x64_1_0_0_1_n_n.contr.Idx) :
    (dot_S10000x128_S128x64_S10000x64_1_0_0_1_n_n.rhsIdx i q 1).val = (i 1).val := by
  unfold DotDims.rhsIdx
  rw [dif_neg (show ¬(1 : Fin S128x64.rank) ∈ dot_S10000x128_S128x64_S10000x64_1_0_0_1_n_n.rhsBatch by decide), dif_pos (show (1 : Fin S128x64.rank) ∈ dot_S10000x128_S128x64_S10000x64_1_0_0_1_n_n.rhsNonContracting by decide)]
  rfl

/-- The degree column plus one, broadcast along the features, reads row `p`'s entry. -/
theorem denom_apply (x2 : Vec Ideal S10000x1 .f32) (p : Fin 10000) (k : Fin 128) :
    broadcastTo S10000x128 (addf (shapeCast S10000x1 x2 shapeCasts_S10000x1_S10000x1) (broadcast S10000x1 (Scalar.ofBits (F := Ideal) .f32 0x3F800000#32))) broadcasts_S10000x1_S10000x128 (ix2 p k)
      = x2 (ix2 p 0) + Ideal.ofBits .f32 0x3F800000#32 := by
  rw [broadcastTo_apply _ broadcasts_S10000x1_S10000x128 (ix2 p k) (ix2 p (0 : Fin 1)) (fun a => by
    match a with
    | ⟨0, _⟩ => show p.val = if (10000 : Nat) = 1 then 0 else p.val; rw [if_neg (by decide)]
    | ⟨1, _⟩ => show (0 : Nat) = if (1 : Nat) = 1 then 0 else k.val; rw [if_pos rfl])]
  rw [shapeCast_self]
  rfl

/-- The bias row, broadcast along the rows, reads column `o`'s entry. -/
theorem bias_apply (x4 : Vec Ideal S1x64 .f32) (p : Fin 10000) (o : Fin 64) :
    broadcastTo S10000x64 (shapeCast S1x64 x4 shapeCasts_S1x64_S1x64) broadcasts_S1x64_S10000x64 (ix2 p o) = x4 (ix2 (0 : Fin 1) o) := by
  rw [broadcastTo_apply _ broadcasts_S1x64_S10000x64 (ix2 p o) (ix2 (0 : Fin 1) o) (fun a => by
    match a with
    | ⟨0, _⟩ => show (0 : Nat) = if (1 : Nat) = 1 then 0 else p.val; rw [if_pos rfl]
    | ⟨1, _⟩ => show o.val = if (64 : Nat) = 1 then 0 else o.val; rw [if_neg (by decide)])]
  rw [shapeCast_self]

/-- The transposed weights at `(k, o)` are the weights at `(o, k)`. -/
theorem wt_apply (x3 : Vec Ideal S64x128 .f32) (k : Fin 128) (o : Fin 64) :
    (transpose S128x64 [1, 0] (truncf (F := Ideal) .bf16 x3 bitsLt_bf16_f32) transposes_S64x128_p1_0_S128x64 : FVec Ideal S128x64 .bf16) (ix2 k o)
      = (x3 (ix2 o k) : EReal) := by
  rw [transpose_apply [1, 0] _ transposes_S64x128_p1_0_S128x64 (ix2 k o) (ix2 o k) (fun b => by
    match b with
    | ⟨0, _⟩ => rfl
    | ⟨1, _⟩ => rfl)]
  rfl

/-- THE BLOCK AT AN INDEX: entry `(p, o)` of what the body stores. -/
theorem pay_apply (x0 x1 : Vec Ideal S10000x128 .f32) (x2 : Vec Ideal S10000x1 .f32) (x3 : Vec Ideal S64x128 .f32)
    (x4 : Vec Ideal S1x64 .f32) (p : Fin 10000) (o : Fin 64) :
    k0_pay1 (F := Ideal) x0 x1 x2 x3 x4 (ix2 p o)
      = (∑ k : Fin 128, Ideal.div (x1 (ix2 p k) + x0 (ix2 p k)) (x2 (ix2 p (0 : Fin 1)) + Ideal.ofBits .f32 0x3F800000#32) * x3 (ix2 o k))
        + x4 (ix2 (0 : Fin 1) o) := by
  unfold k0_pay1
  dsimp only
  rw [addf_apply, bias_apply]
  congr 1
  refine (Cert.LibPlainMatmul.matmul_zero_apply dot_S10000x128_S128x64_S10000x64_1_0_0_1_n_n none rfl rfl dot_l0 dot_l1 dot_r0 dot_r1 _ _ p o).trans ?_
  refine Finset.sum_congr rfl fun k _ => ?_
  rw [wt_apply, truncf_apply, divf_apply, denom_apply, addf_apply, shapeCast_self]

end Cert.KernelIdeal.Block

end
-- ==== Proof.KernelHost.lean ====
/-
  The arrays the kernel region finds in the windows the host part of the program wrote before it.

  Before the region the program gathers the feature rows along the edges' sources (a negative source index wrapped by the
  row count first), adds each gathered row into its edge's destination row of a zero array (the neighbour sums), adds a
  one per edge into its destination's entry of a zero vector (the in-degrees), and re-lays the in-degrees as a column and the
  bias as a row. The neighbour sums and in-degrees are named here as functions of the argument arrays and never opened:
  the reference computes them by the same operations.
-/
import proofs.«133148_j78245714198552_1_alg».proof.Proof.Gen.KernelIdeal.Frame
import Idealize.ShloMosaic.Lib.StableHlo.Run

noncomputable section

open Idealize.ShloMosaic Idealize.ShloMosaic.TcCoe Idealize.SL.Sem

namespace Cert.KernelIdeal.Host

open Cert.KernelIdeal Cert.KernelIdeal.Gen Idealize.ShloMosaic.StableHlo

variable {F : FTy → Type} [FloatOps F]

/-- The neighbour sums [N, F]: the rows of `x` gathered at the edges' sources, added into the edges' destination rows. -/
def neighSum (x : (⟨S100000x128, .f32⟩ : BufTy).Contents (Elt F)) (src dst : (⟨S800000, .i32⟩ : BufTy).Contents (Elt F)) :
    (⟨S100000x128, .f32⟩ : BufTy).Contents (Elt F) :=
  Host.scatterAdd scatter_S100000x128_S800000x1_S800000x128_1_0_0_1
    (broadcastInDim S100000x128 ![] bcast_S_S100000x128 (constant S_ .f32 0x00000000#32))
    (broadcastInDim S800000x1 ![0] bcast_S800000_S800000x1_0 dst)
    (Host.gather gather_S100000x128_S800000x1_S800000x128_1_0_n_n_0_1_1128 x
      (broadcastInDim S800000x1 ![0] bcast_S800000_S800000x1_0
        (select (cmpi .slt src (broadcastInDim S800000 ![] bcast_S_S800000 (constantI S_ 32 0#32)))
          (addi src (broadcastInDim S800000 ![] bcast_S_S800000 (constantI S_ 32 100000#32))) src)))

/-- The in-degrees [N]: a one per edge added into its destination's entry. -/
def inDegree (dst : (⟨S800000, .i32⟩ : BufTy).Contents (Elt F)) : (⟨S100000, .f32⟩ : BufTy).Contents (Elt F) :=
  Host.scatterAdd scatter_S100000_S800000x1_S800000_n_0_0_1
    (broadcastInDim S100000 ![] bcast_S_S100000 (constant S_ .f32 0x00000000#32))
    (broadcastInDim S800000x1 ![0] bcast_S800000_S800000x1_0 dst)
    (broadcastInDim S800000 ![] bcast_S_S800000 (constant S_ .f32 0x3F800000#32))

variable (m : (ℓ : Loc nD τ sig) → Buf (Elt F) ℓ)

/-- The neighbour-sum window's array at region entry. -/
theorem V_neigh (c : Dev nD) : (V m c main_v9 : S100000x128.Idx → Elt F .f32)
    = neighSum (m ((c : Thread nD τ).loc main_arg0)) (m ((c : Thread nD τ).loc main_arg1)) (m ((c : Thread nD τ).loc main_arg2)) := by
  dsimp only [V, hostOps0]; after_results; rfl

/-- The degree window's array at region entry: the in-degrees as a column. -/
theorem V_deg (c : Dev nD) : (V m c main_v14 : S100000x1.Idx → Elt F .f32)
    = shapeCast S100000x1 (inDegree (m ((c : Thread nD τ).loc main_arg2))) shapeCasts_S100000_S100000x1 := by
  dsimp only [V, hostOps0]; after_results; rfl

/-- The bias window's array at region entry: the bias as a row. -/
theorem V_bias (c : Dev nD) : (V m c main_v15 : S1x64.Idx → Elt F .f32)
    = shapeCast S1x64 (m ((c : Thread nD τ).loc main_arg4) : S64.Idx → Elt F .f32) shapeCasts_S64_S1x64 := by
  dsimp only [V, hostOps0]; after_results; rfl

end Cert.KernelIdeal.Host

end
-- ==== Proof.KernelReads.lean ====
/-
  The input windows' blocks at a grid point, read at an index, as entries of the arrays the windows stage.

  The grid has ten points; at point `t` the three row-blocked windows (features, neighbour sums, degree column) hold rows
  `10000·t … 10000·t + 9999` of their arrays, and the weight and bias windows hold their whole arrays. An entry of a block
  sits in the array at block index × block size + the coordinate inside the block, on each axis. The degree column and the
  bias row are re-layings of a vector, so their entries are the vector's at the same row-major position.
-/
import proofs.«133148_j78245714198552_1_alg».proof.Proof.Gen.KernelIdeal.Frame
import proofs.«133148_j78245714198552_1_alg».proof.Proof.KernelHost
import Idealize.ShloMosaic.Lib.Pipeline.Value
import Idealize.ShloMosaic.Lib.ValueIdx

noncomputable section

open scoped BigOperators
open Idealize.ShloMosaic Idealize.ShloMosaic.TcCoe Idealize.SL.Sem Idealize.ShloMosaic.ValueIdx
open Idealize.ShloMosaic.Pipeline (Dat)

namespace Cert.KernelIdeal.Hand

open Cert.KernelIdeal Cert.KernelIdeal.Gen

variable (m : (ℓ : Loc nD τ sig) → Buf (Elt Ideal) ℓ) (ρ : Dev nD → PrngReg)

theorem hz : (![0, 0] : Fin 2 → Nat) = fun _ => 0 := funext fun a => by fin_cases a <;> rfl

/-- The block index maps over the ten points: the three row-blocked inputs and the output move with the point along the
    rows, the weights and the bias stay at block (0, 0). -/
theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = t.val ∧ win0_5.index t (1 : Fin 2) = 0 :=
  (by decide +kernel : ∀ t : Fin grid0.N, _)

/-- The feature block at point `t`: row `p` is row `10000·t + p` of the features. -/
theorem feat_apply (c : Dev nD) (t : Fin cfg0.N) (p : Fin 10000) (k : Fin 128) (n : Fin 100000) (hn : n.val = t.val * 10000 + p.val) :
    (iblk m c 0 t : Vec Ideal S10000x128 .f32) (ix2 p k) = ((m ((c : Thread nD τ).loc main_arg0)) : S100000x128.Idx → Elt Ideal .f32) (ix2 n k) := by
  obtain ⟨e0, e1, -⟩ := idx_facts t
  unfold iblk
  rw [View.read_apply, cast_eq, show V m c (Pipeline.arrRef spec0 0) = _ from V_main_arg0 m c]
  refine congrArg (m ((c : Thread nD τ).loc main_arg0)) (funext fun a => Fin.ext ?_)
  match a with
  | ⟨0, _⟩ => show win0_0.index t (0 : Fin 2) * 10000 + 1 * p.val = n.val; rw [e0, hn]; omega
  | ⟨1, _⟩ => show win0_0.index t (1 : Fin 2) * 128 + 1 * k.val = k.val; rw [e1]; omega

/-- The neighbour-sum block at point `t`: row `p` is row `10000·t + p` of the neighbour sums. -/
theorem neigh_apply (c : Dev nD) (t : Fin cfg0.N) (p : Fin 10000) (k : Fin 128) (n : Fin 100000) (hn : n.val = t.val * 10000 + p.val) :
    (iblk m c 1 t : Vec Ideal S10000x128 .f32) (ix2 p k)
      = Host.neighSum (m ((c : Thread nD τ).loc main_arg0)) (m ((c : Thread nD τ).loc main_arg1)) (m ((c : Thread nD τ).loc main_arg2)) (ix2 n k) := by
  obtain ⟨-, -, e0, e1, -⟩ := idx_facts t
  unfold iblk
  rw [View.read_apply, cast_eq, show V m c (Pipeline.arrRef spec0 1) = _ from Host.V_neigh m c]
  refine congrArg (Host.neighSum (m ((c : Thread nD τ).loc main_arg0)) (m ((c : Thread nD τ).loc main_arg1)) (m ((c : Thread nD τ).loc main_arg2))) (funext fun a => Fin.ext ?_)
  match a with
  | ⟨0, _⟩ => show win0_1.index t (0 : Fin 2) * 10000 + 1 * p.val = n.val; rw [e0, hn]; omega
  | ⟨1, _⟩ => show win0_1.index t (1 : Fin 2) * 128 + 1 * k.val = k.val; rw [e1]; omega

/-- The degree block at point `t`: its entry in row `p` is the in-degree of node `10000·t + p` (the column is the
    in-degree vector re-laid, so its entry `(n, 0)` sits at the vector's position `n`). -/
theorem deg_apply (c : Dev nD) (t : Fin cfg0.N) (p : Fin 10000) (n : Fin 100000) (hn : n.val = t.val * 10000 + p.val) :
    (iblk m c 2 t : Vec Ideal S10000x1 .f32) (ix2 p (0 : Fin 1)) = Host.inDegree (m ((c : Thread nD τ).loc main_arg2)) (ix1 n) := by
  obtain ⟨-, -, -, -, e0, e1, -⟩ := idx_facts t
  unfold iblk
  rw [View.read_apply, cast_eq, show V m c (Pipeline.arrRef spec0 2) = _ from Host.V_deg m c]
  refine shapeCast_apply _ _ _ (ix1 n) ?_
  rw [Shape.rowMajor_val_one, Shape.rowMajor_val_two]
  show n.val = (win0_2.index t (0 : Fin 2) * 10000 + 1 * p.val) * 1 + (win0_2.index t (1 : Fin 2) * 1 + 1 * 0)
  rw [e0, e1, hn]; omega

/-- The weight block at every point is the whole weight array. -/
theorem weight_apply (c : Dev nD) (t : Fin cfg0.N) (o : Fin 64) (k : Fin 128) :
    (iblk m c 3 t : Vec Ideal S64x128 .f32) (ix2 o k) = ((m ((c : Thread nD τ).loc main_arg3)) : S64x128.Idx → Elt Ideal .f32) (ix2 o k) := by
  obtain ⟨-, -, -, -, -, -, e0, e1, -⟩ := idx_facts t
  unfold iblk
  rw [View.read_apply, cast_eq, show V m c (Pipeline.arrRef spec0 3) = _ from V_main_arg3 m c]
  refine congrArg (m ((c : Thread nD τ).loc main_arg3)) (funext fun a => Fin.ext ?_)
  match a with
  | ⟨0, _⟩ => show win0_3.index t (0 : Fin 2) * 64 + 1 * o.val = o.val; rw [e0]; omega
  | ⟨1, _⟩ => show win0_3.index t (1 : Fin 2) * 128 + 1 * k.val = k.val; rw [e1]; omega

/-- The bias block at every point is the bias re-laid as a row: its entry `(0, o)` is bias entry `o`. -/
theorem bias_apply (c : Dev nD) (t : Fin cfg0.N) (o : Fin 64) :
    (iblk m c 4 t : Vec Ideal S1x64 .f32) (ix2 (0 : Fin 1) o) = ((m ((c : Thread nD τ).loc main_arg4)) : S64.Idx → Elt Ideal .f32) (ix1 o) := by
  obtain ⟨-, -, -, -, -, -, -, -, e0, e1, -⟩ := idx_facts t
  unfold iblk
  rw [View.read_apply, cast_eq, show V m c (Pipeline.arrRef spec0 4) = _ from Host.V_bias m c]
  refine shapeCast_apply _ _ _ (ix1 o) ?_
  rw [Shape.rowMajor_val_one, Shape.rowMajor_val_two]
  show o.val = (win0_4.index t (0 : Fin 2) * 1 + 1 * 0) * 64 + (win0_4.index t (1 : Fin 2) * 64 + 1 * o.val)
  rw [e0, e1]; omega

end Cert.KernelIdeal.Hand

end
-- ==== Proof.SageSpec.lean ====
/-
  The value both programs compute, as ONE function of the argument arrays, index by index, on the extended reals.

  With `x` the node features [N, F], `nb` the neighbour sums [N, F] (feature rows gathered along the edges and added into
  their destination rows), `dg` the in-degrees [N], `W` the weights [C, F] and `b` the bias [C]:

      out (n, c) = (∑ f, ((nb (n, f) + x (n, f)) / (dg n + 1)) · W (c, f)) + b c.

  The quotient is the ideal instance's division, the constant the extended real the word of 1.0 denotes; no law of the
  extended reals is needed to set the two programs beside this function, only the order of the operands.
-/
import Idealize.ShloMosaic.PureOps.Ideal
import Idealize.ShloMosaic.Lib.ValueIdx

noncomputable section

open scoped BigOperators
open Idealize.ShloMosaic Idealize.ShloMosaic.ValueIdx

namespace Cert.SageSpec

/-- The extended real the word of the float 1.0 denotes. -/
abbrev one : EReal := Ideal.ofBits .f32 0x3F800000#32

/-- Row `n`'s mean-aggregated feature `f`: the neighbour sum plus the node's own feature, over the in-degree plus one. -/
def mean (x nb : FVec Ideal ⟨2, ![100000, 128]⟩ .f32) (dg : FVec Ideal ⟨1, ![100000]⟩ .f32) (n : Fin 100000) (f : Fin 128) : EReal :=
  Ideal.div (nb (ix2 n f) + x (ix2 n f)) (dg (ix1 n) + one)

/-- The layer's output: the aggregated row against each weight row, plus the bias. -/
def combine (x nb : FVec Ideal ⟨2, ![100000, 128]⟩ .f32) (dg : FVec Ideal ⟨1, ![100000]⟩ .f32)
    (W : FVec Ideal ⟨2, ![64, 128]⟩ .f32) (b : FVec Ideal ⟨1, ![64]⟩ .f32) : FVec Ideal ⟨2, ![100000, 64]⟩ .f32 :=
  fun i => (∑ f : Fin 128, mean x nb dg (i 0) f * W (ix2 (i 1) f)) + b (ix1 (i 1))

theorem combine_apply (x nb : FVec Ideal ⟨2, ![100000, 128]⟩ .f32) (dg : FVec Ideal ⟨1, ![100000]⟩ .f32)
    (W : FVec Ideal ⟨2, ![64, 128]⟩ .f32) (b : FVec Ideal ⟨1, ![64]⟩ .f32) (n : Fin 100000) (c : Fin 64) :
    combine x nb dg W b (ix2 n c) = (∑ f : Fin 128, mean x nb dg n f * W (ix2 c f)) + b (ix1 c) := rfl

end Cert.SageSpec

end
-- ==== Proof.KernelValue.lean ====
/-
  The kernel's result array after the run, as the function `Cert.SageSpec.combine` of the argument arrays.

  The grid has ten points; point `t` works on rows `10000·t … 10000·t + 9999`: it is handed those rows of the features,
  of the neighbour sums and of the degree column, the whole weights and the whole bias row, and writes back those rows of
  the result. So entry `(p, o)` of the block point `t` writes is entry `(10000·t + p, o)` of `combine`: the block's
  entry is the sum over the features of `(neighbour sum + feature) / (degree + 1)` at row `10000·t + p` against weight
  row `o`, plus bias entry `o`, each factor read from its window's block at the array index the block's rectangle gives.
  The ten blocks tile the result's rows (row `r` is point `r / 10000`'s), so the array ends holding `combine` everywhere.
-/
import proofs.«133148_j78245714198552_1_alg».proof.Proof.Gen.KernelIdeal.Value
import proofs.«133148_j78245714198552_1_alg».proof.Proof.KernelBlock
import proofs.«133148_j78245714198552_1_alg».proof.Proof.KernelHost
import proofs.«133148_j78245714198552_1_alg».proof.Proof.KernelReads
import proofs.«133148_j78245714198552_1_alg».proof.Proof.SageSpec
import Idealize.ShloMosaic.Lib.Pipeline.Value
import Idealize.ShloMosaic.Lib.ValueIdx

noncomputable section

open scoped BigOperators
open Idealize.ShloMosaic Idealize.ShloMosaic.TcCoe Idealize.SL.Sem Idealize.ShloMosaic.ValueIdx
open Idealize.ShloMosaic.Pipeline (Dat)

namespace Cert.KernelIdeal.Hand

open Cert.KernelIdeal Cert.KernelIdeal.Gen Cert.KernelIdeal.Value

variable (m : (ℓ : Loc nD τ sig) → Buf (Elt Ideal) ℓ) (ρ : Dev nD → PrngReg)

/-- The result array: `combine` of the features, the neighbour sums, the in-degrees, the weights and the bias. -/
abbrev result (c : Dev nD) : Buf (Elt Ideal) ((c : Thread nD τ).loc main_v16) :=
  Cert.SageSpec.combine (m ((c : Thread nD τ).loc main_arg0))
    (Host.neighSum (m ((c : Thread nD τ).loc main_arg0)) (m ((c : Thread nD τ).loc main_arg1)) (m ((c : Thread nD τ).loc main_arg2)))
    (Host.inDegree (m ((c : Thread nD τ).loc main_arg2))) (m ((c : Thread nD τ).loc main_arg3)) (m ((c : Thread nD τ).loc main_arg4))

/-- WHAT POINT `t` WRITES BACK is block `t` of `result`. -/
theorem flushed_eq (c : Dev nD) (t : Fin cfg0.N) :
    (dats m 0 c).flushed 5 t = ((cfg0.win 5).blk t).view.read (Elt Ideal) (result m c) := by
  rw [flushed5]
  unfold out0_5
  rw [View.canon_unit_zero hz]
  simp only [View.ld_unit_zero (S := S10000x128) hz, View.ld_unit_zero (S := S10000x1) hz, View.ld_unit_zero (S := S64x128) hz,
    View.ld_unit_zero (S := S1x64) hz]
  refine funext fun (j : S10000x64.Idx) => ?_
  obtain ⟨p, o, rfl⟩ : ∃ (p : Fin 10000) (o : Fin 64), j = ix2 p o := ⟨j 0, j 1, eq_ix2 j⟩
  have hN : cfg0.N = 10 := N_0
  have ht : t.val < cfg0.N := t.isLt
  obtain ⟨-, -, -, -, -, -, -, -, -, -, e0, e1⟩ := idx_facts t
  obtain ⟨n, hn⟩ : ∃ n : Fin 100000, n.val = t.val * 10000 + p.val := ⟨⟨t.val * 10000 + p.val, by have := p.isLt; omega⟩, rfl⟩
  have hemb : ((cfg0.win 5).blk t).view.emb (ix2 p o) = (ix2 n o : S100000x64.Idx) := funext fun a => Fin.ext (by
    match a with
    | ⟨0, _⟩ => show win0_5.index t (0 : Fin 2) * 10000 + 1 * p.val = n.val; rw [e0, hn]; omega
    | ⟨1, _⟩ => show win0_5.index t (1 : Fin 2) * 64 + 1 * o.val = o.val; rw [e1]; omega)
  rw [View.read_apply, cast_eq, hemb]
  refine (Block.pay_apply (iblk m c 0 t) (iblk m c 1 t) (iblk m c 2 t) (iblk m c 3 t) (iblk m c 4 t) p o).trans ?_
  refine Eq.trans ?_ (Cert.SageSpec.combine_apply _ _ _ _ _ n o).symm
  rw [bias_apply m c t o]
  refine congrArg₂ (· + ·) (Finset.sum_congr rfl fun k _ => ?_) rfl
  rw [feat_apply m c t p k n hn, neigh_apply m c t p k n hn, deg_apply m c t p n hn, weight_apply m c t o k]
  unfold Cert.SageSpec.mean
  rfl

/-- An index of the result is in point `t`'s block iff each coordinate is in the block's range on its axis. -/
theorem mem_blk (t : Fin cfg0.N) (i : S100000x64.Idx) :
    i ∈ ((cfg0.win 5).blk t).view.set ↔ ∀ a : Fin 2, win0_5.index t a * S10000x64.size a ≤ (i a).val ∧ (i a).val < win0_5.index t a * S10000x64.size a + S10000x64.size a := by
  show i ∈ ((View.whole main_v16).slice (win0_5.rect t)).set ↔ _
  rw [View.set_slice_whole, Rect.mem_set_unit]
  exact Iff.rfl

/-- Every index of the result is in some point's block: row `r` in point `r / 10000`'s. -/
theorem cover (i : S100000x64.Idx) : ∃ t : Fin cfg0.N, (cfg0.win 5).flush t = true ∧ i ∈ ((cfg0.win 5).blk t).view.set := by
  have hN : cfg0.N = 10 := N_0
  have hi0 : (i 0).val < 100000 := (i 0).isLt
  have hi1 : (i 1).val < 64 := (i 1).isLt
  obtain ⟨t, ht⟩ : ∃ t : Fin cfg0.N, t.val = (i 0).val / 10000 := ⟨⟨(i 0).val / 10000, by rw [hN]; omega⟩, rfl⟩
  obtain ⟨-, -, -, -, -, -, -, -, -, -, e0, e1⟩ := idx_facts t
  refine ⟨t, flush0_5 t, ?_⟩
  rw [mem_blk]
  intro a
  match a with
  | ⟨0, _⟩ => show win0_5.index t (0 : Fin 2) * 10000 ≤ (i 0).val ∧ (i 0).val < win0_5.index t (0 : Fin 2) * 10000 + 10000; rw [e0, ht]; omega
  | ⟨1, _⟩ => show win0_5.index t (1 : Fin 2) * 64 ≤ (i 1).val ∧ (i 1).val < win0_5.index t (1 : Fin 2) * 64 + 64; rw [e1]; omega

/-- The result array after the run is `result`. -/
theorem final (c : Dev nD) : (dats m 0 c).arrAt 5 cfg0.N = result m c :=
  (dats m 0 c).arrAt_eq_of_cover 5 (result m c) (fun t _ => flushed_eq m c t) cover

/-- The run, read: the result array at `result`, the arguments unchanged. -/
theorem run : θ_run defs (onTc (τ := τ) (main (F := Ideal))) ⟨m, fun _ => 0, ρ⟩ fun r => ∀ c : Dev nD,
      r.2.mem ((c : Thread nD τ).loc main_v16) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun r h c => ⟨(h c).1.trans (final m c), (h c).2⟩) (run_blocks m ρ)

end Cert.KernelIdeal.Hand

end
-- ==== Proof.RefValue.lean ====
/-
  The reference's result, as the function `Cert.SageSpec.combine` of the argument arrays.

  After the neighbour sums and the in-degrees (computed as in the kernel's host part) the reference adds the features to the
  neighbour sums, adds one to the in-degrees, broadcasts that vector along the features, divides, contracts the quotient's
  feature axis with the weights' feature axis, and adds the bias broadcast along the rows. Read at `(n, c)`: the sum over
  the features `f` of the quotient at `(n, f)` times the weight at `(c, f)`, plus bias entry `c`; the quotient at `(n, f)` is
  `(neighbour sum + feature) (n, f)` over `in-degree n + 1`.
-/
import proofs.«133148_j78245714198552_1_alg».proof.Proof.Gen.ReferenceIdeal.Read
import proofs.«133148_j78245714198552_1_alg».proof.Proof.SageSpec
import Idealize.ShloMosaic.Lib.ValueIdx

noncomputable section

open scoped BigOperators
open Idealize.ShloMosaic Idealize.ShloMosaic.ValueIdx

namespace Cert.ReferenceIdeal.RefValue

open Cert.ReferenceIdeal Cert.ReferenceIdeal.Read

/-- The quotient stage at `(n, f)`. -/
theorem quot_apply (x0 : (⟨S100000x128, .f32⟩ : BufTy).Contents (Elt Ideal)) (x1 x2 : (⟨S800000, .i32⟩ : BufTy).Contents (Elt Ideal))
    (n : Fin 100000) (f : Fin 128) :
    val_main_v19 (F := Ideal) x0 x1 x2 (ix2 n f)
      = Cert.SageSpec.mean x0 (val_main_v9 (F := Ideal) x0 x1 x2) (val_main_v13 (F := Ideal) x2) n f := by
  have hi : idx_main_v17 (idx_main_v18 (ix2 n f : S100000x128.Idx)) = ix1 n := funext fun a => by
    match a with
    | ⟨0, _⟩ => rfl
  rw [val_main_v19_apply, val_main_v14_apply, val_main_v18_apply, val_main_v17_apply, hi, val_main_v16_apply, val_main_v15_apply,
    val_main_cst_3_apply]
  rfl

/-- The reference's last stage is `combine` of the arguments, the neighbour sums and the in-degrees. -/
theorem result_eq (x0 : (⟨S100000x128, .f32⟩ : BufTy).Contents (Elt Ideal)) (x1 x2 : (⟨S800000, .i32⟩ : BufTy).Contents (Elt Ideal))
    (x3 : (⟨S64x128, .f32⟩ : BufTy).Contents (Elt Ideal)) (x4 : (⟨S64, .f32⟩ : BufTy).Contents (Elt Ideal)) :
    val_main_v23 (F := Ideal) x0 x1 x2 x3 x4
      = Cert.SageSpec.combine x0 (val_main_v9 (F := Ideal) x0 x1 x2) (val_main_v13 (F := Ideal) x2) x3 x4 := by
  funext i
  obtain ⟨n, c, rfl⟩ : ∃ (n : Fin 100000) (c : Fin 64), i = ix2 n c := ⟨i 0, i 1, eq_ix2 i⟩
  have hl : ∀ k : Fin 128, lidx_main_v20 (ix2 n c : S100000x64.Idx) k = ix2 n k := fun k => funext fun a => by
    match a with
    | ⟨0, _⟩ => rfl
    | ⟨1, _⟩ => rfl
  have hr : ∀ k : Fin 128, ridx_main_v20 (ix2 n c : S100000x64.Idx) k = ix2 c k := fun k => funext fun a => by
    match a with
    | ⟨0, _⟩ => rfl
    | ⟨1, _⟩ => rfl
  have hb : idx_main_v21 (idx_main_v22 (ix2 n c : S100000x64.Idx)) = ix1 c := funext fun a => by
    match a with
    | ⟨0, _⟩ => rfl
  rw [Cert.SageSpec.combine_apply, val_main_v23_apply, val_main_v20_apply, val_main_v22_apply, val_main_v21_apply, hb]
  show _ + _ = _ + _
  refine congrArg₂ (· + ·) (Finset.sum_congr rfl fun k _ => ?_) rfl
  rw [hl k, hr k, quot_apply]

end Cert.ReferenceIdeal.RefValue

end
-- ==== Proof.HostAgree.lean ====
/-
  The two programs compute the neighbour sums and the in-degrees by the same host operations: the reference's stages for
  them are the kernel program's terms, operation by operation (the gather of the feature rows at the wrapped source
  indices, the two scatter-additions into zero arrays at the destination indices), over dimension records with the same
  entries.
-/
import proofs.«133148_j78245714198552_1_alg».proof.Proof.Gen.ReferenceIdeal.Read
import proofs.«133148_j78245714198552_1_alg».proof.Proof.KernelHost

noncomputable section

open Idealize.ShloMosaic

namespace Cert.Proof.HostAgree

variable {F : FTy → Type} [FloatOps F]

/-- The reference's neighbour-sum stage is the kernel program's neighbour sums. -/
theorem neigh_eq (x0 : (⟨Cert.ReferenceIdeal.S100000x128, .f32⟩ : BufTy).Contents (Elt F))
    (x1 x2 : (⟨Cert.ReferenceIdeal.S800000, .i32⟩ : BufTy).Contents (Elt F)) :
    Cert.ReferenceIdeal.Read.val_main_v9 (F := F) x0 x1 x2 = Cert.KernelIdeal.Host.neighSum (F := F) x0 x1 x2 := rfl

/-- The reference's in-degree stage is the kernel program's in-degrees. -/
theorem deg_eq (x2 : (⟨Cert.ReferenceIdeal.S800000, .i32⟩ : BufTy).Contents (Elt F)) :
    Cert.ReferenceIdeal.Read.val_main_v13 (F := F) x2 = Cert.KernelIdeal.Host.inDegree (F := F) x2 := rfl

end Cert.Proof.HostAgree

end
-- ==== Proof.lean ====
/-
  The kernel computes one graph-convolution layer with mean aggregation: with the neighbour sums `nb` (feature rows
  gathered along the edges and added into their destination rows) and the in-degrees `dg` computed on the host,

      out (n, c) = (∑ f, ((nb (n, f) + x (n, f)) / (dg n + 1)) · W (c, f)) + b c,

  the quotient and the product with the transposed weights inside one kernel over ten row blocks, the factors narrowed
  to bf16 on the way into the product. The reference computes the same neighbour sums and in-degrees by the same host
  operations, then the quotient, the contraction of the feature axes and the bias on the host. On the extended reals a
  narrowing is the identity and a product accumulated into zero is the plain sum, so both results are the function
  `Cert.SageSpec.combine` of the arguments: the kernel's by `Cert.KernelIdeal.Hand.run` (block by block, the ten blocks
  tiling the rows), the reference's by `Cert.ReferenceIdeal.RefValue.result_eq` over its run read one operation at a
  time; no algebraic law is needed, and the precondition is not used. The ideal pass rewrote nothing, so `preserves` is
  trivial. The frames are the generated ones; the reference's is its run with the result dropped.
-/
import proofs.«133148_j78245714198552_1_alg».proof.Defs
import proofs.«133148_j78245714198552_1_alg».proof.Proof.Gen.Kernel
import proofs.«133148_j78245714198552_1_alg».proof.Proof.Gen.Kernel.Skeleton
import proofs.«133148_j78245714198552_1_alg».proof.Proof.Gen.Kernel.Launch
import proofs.«133148_j78245714198552_1_alg».proof.Proof.Gen.Kernel.Points
import proofs.«133148_j78245714198552_1_alg».proof.Proof.Gen.Kernel.Frame
import proofs.«133148_j78245714198552_1_alg».proof.Proof.Gen.KernelIdeal
import proofs.«133148_j78245714198552_1_alg».proof.Proof.Gen.KernelIdeal.Skeleton
import proofs.«133148_j78245714198552_1_alg».proof.Proof.Gen.KernelIdeal.Launch
import proofs.«133148_j78245714198552_1_alg».proof.Proof.Gen.KernelIdeal.Points
import proofs.«133148_j78245714198552_1_alg».proof.Proof.Gen.KernelIdeal.Frame
import proofs.«133148_j78245714198552_1_alg».proof.Proof.Gen.ReferenceIdeal
import proofs.«133148_j78245714198552_1_alg».proof.Proof.Gen.Pre_finite_inputs
import proofs.«133148_j78245714198552_1_alg».proof.Proof.Gen.KernelIdeal.Value
import proofs.«133148_j78245714198552_1_alg».proof.Proof.Gen.ReferenceIdeal.Run
import proofs.«133148_j78245714198552_1_alg».proof.Proof.Gen.ReferenceIdeal.Read
import proofs.«133148_j78245714198552_1_alg».proof.Proof.KernelValue
import proofs.«133148_j78245714198552_1_alg».proof.Proof.RefValue
import proofs.«133148_j78245714198552_1_alg».proof.Proof.HostAgree
import Idealize.ShloMosaic.Adequacy
import Idealize.ShloMosaic.Init

noncomputable section

namespace Cert.Proof

open Idealize.ShloMosaic Idealize.SL.Sem

theorem frame_k : Cert.frame_Kernel := fun m ρ _ => Cert.Kernel.Gen.frame m ρ

theorem frame_ki : Cert.frame_KernelIdeal := fun m ρ _ => Cert.KernelIdeal.Gen.frame m ρ

theorem frame_ri : Cert.frame_ReferenceIdeal := fun m ρ _ =>
  (θ_run Cert.ReferenceIdeal.defs _ _).mono (fun _ h c => (h c).2) (Cert.ReferenceIdeal.Value.run (F := Ideal) m ρ)

/-- Both programs end with the result array at `combine` of the arguments, the neighbour sums and the in-degrees: the
    kernel's run gives it block by block, the reference's run stage by stage, and the neighbour sums and in-degrees of the
    two programs are the same terms of arguments that agree. -/
theorem algebraic : Cert.algebraic_KernelIdeal_ReferenceIdeal := by
  intro m ρ m' ρ' _ hagree
  refine ⟨fun c => Cert.KernelIdeal.Hand.result m c, Cert.KernelIdeal.Hand.run m ρ, ?_⟩
  refine (θ_run Cert.ReferenceIdeal.defs _ _).mono (fun _ h c => ⟨(h c).1.trans ?_, (h c).2⟩)
    (Cert.ReferenceIdeal.Value.run (F := Ideal) m' ρ')
  obtain ⟨h0, h1, h2, h3, h4⟩ := hagree c
  rw [Cert.ReferenceIdeal.Read.val_main_v23_eq, Cert.ReferenceIdeal.RefValue.result_eq, HostAgree.neigh_eq, HostAgree.deg_eq,
    h0, h1, h2, h3, h4]

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
